-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x64 : Shape := ⟨2, ![1600000, 64]⟩
abbrev S64x64 : Shape := ⟨2, ![64, 64]⟩
abbrev S100000 : Shape := ⟨1, ![100000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg4 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg4 main_v34
  let main_c_13 : IVec S_ 32 := constantI S_ 32 64#32
  let main_v36 : IVec S100000 32 := broadcastInDim S100000 ![] bcast_S_S100000 main_c_13
  let main_v37 : IVec S100000 1 := cmpi .slt main_arg4 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg4 : IVec S100000 32) (main_arg6 : FVec F S256 .f32) (main_arg7 : FVec F S256x128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg4 main_v33

def fn {F : FTy → Type} [FloatOps F] (main_arg0 : FVec F S100000x128 .f32) (main_arg1 : IVec S2x1600000 32) (main_arg2 : FVec F S1600000x64 .f32) (main_arg3 : FVec F S64x64 .f32) (main_arg4 : IVec S100000 32) (main_arg5 : FVec F S256x256 .f32) (main_arg6 : FVec F S256 .f32) (main_arg7 : FVec F S256x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg6 main_arg7 main_arg8 main_v13 main_v16
-- ==== Kernel.lean ====
abbrev S100000x128 : Shape := ⟨2, ![100000, 128]⟩
abbrev S2x1600000 : Shape := ⟨2, ![2, 1600000]⟩
abbrev S1600000x64 : Shape := ⟨2, ![1600000, 64]⟩
abbrev S64x64 : Shape := ⟨2, ![64, 64]⟩
abbrev S100000 : Shape := ⟨1, ![100000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000x64 : Shape := ⟨2, ![100000, 64]⟩
abbrev S1600000x1 : Shape := ⟨2, ![1600000, 1]⟩
abbrev S100000x1 : Shape := ⟨2, ![100000, 1]⟩
abbrev S1x256 : Shape := ⟨2, ![1, 256]⟩
abbrev S1x128 : Shape := ⟨2, ![1, 128]⟩
abbrev S5000x128 : Shape := ⟨2, ![5000, 128]⟩
abbrev S5000x64 : Shape := ⟨2, ![5000, 64]⟩
abbrev S5000x1 : Shape := ⟨2, ![5000, 1]⟩
abbrev S128x256 : Shape := ⟨2, ![128, 256]⟩
abbrev S64x256 : Shape := ⟨2, ![64, 256]⟩
abbrev S5000x256 : Shape := ⟨2, ![5000, 256]⟩

abbrev nBuf : Space → Nat
  | .hbm => 22
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S100000, .i32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x64, .f32⟩
  | .hbm, ⟨13, _⟩ => ⟨S1600000x1, .i32⟩
  | .hbm, ⟨14, _⟩ => ⟨S100000x64, .f32⟩
  | .hbm, ⟨15, _⟩ => ⟨S100000x1, .i32⟩
  | .hbm, ⟨16, _⟩ => ⟨S1x256, .f32⟩
  | .hbm, ⟨17, _⟩ => ⟨S1x128, .f32⟩
  | .hbm, ⟨18, _⟩ => ⟨S64x64, .bf16⟩
  | .hbm, ⟨19, _⟩ => ⟨S256x256, .bf16⟩
  | .hbm, ⟨20, _⟩ => ⟨S256x128, .bf16⟩
  | .hbm, ⟨21, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S5000x1, .i32⟩
  | .local _ .vmem, ⟨5, _⟩ => ⟨S5000x1, .i32⟩
  | .local _ .vmem, ⟨6, _⟩ => ⟨S64x64, .bf16⟩
  | .local _ .vmem, ⟨7, _⟩ => ⟨S256x256, .bf16⟩
  | .local _ .vmem, ⟨8, _⟩ => ⟨S1x256, .f32⟩
  | .local _ .vmem, ⟨9, _⟩ => ⟨S256x128, .bf16⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  shapeCasts_S100000_S100000x1 : S100000.ShapeCasts S100000x1
  shapeCasts_S256_S1x256 : S256.ShapeCasts S1x256
  shapeCasts_S128_S1x128 : S128.ShapeCasts S1x128
  bitsLt_bf16_f32 : FTy.bits .bf16 < FTy.bits .f32
  iota_S5000x64_d1_w32 : S5000x64.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x256_o0_0_S128x256 : S256x256.Slices ![0, 0] S128x256
  slices_S256x256_o128_0_S64x256 : S256x256.Slices ![128, 0] S64x256
  slices_S256x256_o192_0_S64x256 : S256x256.Slices ![192, 0] S64x256
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x128_S128x256_S5000x256_1_0_0_1_n_n_wf : DotDims.WF S5000x128 S128x256 S5000x256 [1] [0] [0] [1] [] []
  dot_S5000x64_S64x256_S5000x256_1_0_0_1_n_n_wf : DotDims.WF S5000x64 S64x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .i32 = 32 ∨ (Rect.block (s := S100000x1) S5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x64 : Shape := ⟨2, ![1600000, 64]⟩
abbrev S64x64 : Shape := ⟨2, ![64, 64]⟩
abbrev S100000 : Shape := ⟨1, ![100000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000x64 : Shape := ⟨2, ![100000, 64]⟩
abbrev S1600000x1 : Shape := ⟨2, ![1600000, 1]⟩
abbrev S100000x1 : Shape := ⟨2, ![100000, 1]⟩
abbrev S100000x256 : Shape := ⟨2, ![100000, 256]⟩
abbrev S1x256 : Shape := ⟨2, ![1, 256]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S100000, .i32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x64, .f32⟩
  | .hbm, ⟨13, _⟩ => ⟨S1600000x1, .i32⟩
  | .hbm, ⟨14, _⟩ => ⟨S100000x64, .f32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x64, .f32⟩
  | .hbm, ⟨24, _⟩ => ⟨S100000x256, .f32⟩
  | .hbm, ⟨25, _⟩ => ⟨S100000x256, .f32⟩
  | .hbm, ⟨26, _⟩ => ⟨S1x256, .f32⟩
  | .hbm, ⟨27, _⟩ => ⟨S100000x256, .f32⟩
  | .hbm, ⟨28, _⟩ => ⟨S100000x256, .f32⟩
  | .hbm, ⟨29, _⟩ => ⟨S_, .f32⟩
  | .hbm, ⟨30, _⟩ => ⟨S100000x256, .f32⟩
  | .hbm, ⟨31, _⟩ => ⟨S100000x256, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x64_S100000x64_S100000x256_d1 : Shape.Concatenates [S100000x128, S100000x64, S100000x64] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x64_S1600000x1_S1600000x64_1_0_0_1_wf : ScatterDims.WF S100000x64 S1600000x1 S1600000x64 [1] [0] [0] 1
  gather_S64x64_S100000x1_S100000x64_1_0_n_n_0_1_164_wf : GatherDims.WF S64x64 S100000x1 S100000x64 [1] [0] [] [0] [] 1 ![1, 64]
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.IndexRange.lean ====
/-
  What the precondition says of the graph numbers.

  The precondition is the conjunction of "every float input is finite" with "every graph number v[i] satisfies
  0 ≤ v[i] < 64" (signed): the graph numbers index the 64 rows of the table of globals. The last conjunct is a
  reduction by "and" over all 100000 positions of the pointwise conjunction of the two comparisons, so at every
  position both comparisons hold. A 32-bit word that is ≥ 0 and < 64 as a signed integer is < 64 as a natural number:
  a negative signed value would be the word's natural value less 2³², which the first comparison excludes.
-/
import proofs.«407637_j80032420593874_2_alg».proof.Defs
import proofs.«407637_j80032420593874_2_alg».proof.Proof.Gen.Pre_finite_inputs
import Idealize.ShloMosaic.Lib.ReduceAll
import Idealize.ShloMosaic.Lib.ValueIdx

noncomputable section

namespace Cert.IndexRange

open Idealize.ShloMosaic Idealize.ShloMosaic.ValueIdx Cert.Pre_finite_inputs

instance : Subsingleton S_.Idx := ⟨fun _ _ => funext fun d => d.elim0⟩

/-- A word in [0, 64) as a signed integer is below 64 as a natural number. -/
theorem toNat_lt_of_signed (w : BitVec 32) (h0 : (0#32 : BitVec 32).toInt ≤ w.toInt)
    (h1 : w.toInt < (64#32 : BitVec 32).toInt) : w.toNat < 64 := by
  have hz : (0#32 : BitVec 32).toInt = 0 := by decide
  have h64 : (64#32 : BitVec 32).toInt = 64 := by decide
  rw [hz] at h0
  rw [h64] at h1
  have hw := w.isLt
  rw [BitVec.toInt_eq_toNat_cond] at h0 h1
  split at h0 <;> omega

variable {F : FTy → Type} [FloatOps F]

/-- Where the precondition holds, every graph number is below 64 as a natural number (so also non-negative as a signed
    integer). Generic in the float instance: the conjunct is about integers only. -/
theorem graph_lt (a0 : FVec F S100000x128 .f32) (a1 : IVec S2x1600000 32) (a2 : FVec F S1600000x64 .f32)
    (a3 : FVec F S64x64 .f32) (a4 : IVec S100000 32) (a5 : FVec F S256x256 .f32) (a6 : FVec F S256 .f32)
    (a7 : FVec F S256x128 .f32) (a8 : FVec F S128 .f32)
    (h : fn (F := F) a0 a1 a2 a3 a4 a5 a6 a7 a8 = fun _ => 1#1) (i : S100000.Idx) : (a4 i).toNat < 64 := by
  have e := congrFun h ix0
  unfold fn fn_part1 fn_part2 at e
  dsimp only at e
  have e2 := (IntOp.andi_eq_one.1 e).2
  have e3 := Host.reduce_andi_all _ _ _ _ _ e2 i
  obtain ⟨h0, h64⟩ := IntOp.andi_eq_one.1 e3
  exact toNat_lt_of_signed (a4 i) (IntOp.cmpi_sge.1 h0) (IntOp.cmpi_slt.1 h64)

end Cert.IndexRange

end
-- ==== Proof.NodeSpec.lean ====
/-
  The node update as mathematics over the extended reals, one node (one row) at a time.

  A node's input row is the concatenation of its 128 features, the 64 sums of the features of the edges that leave it,
  and the 64 entries of the row of the table of globals its graph number selects. The update is a two-layer
  perceptron on that 256-wide row: out = max (row · W1 + b1) 0 · W2 + b2.

  Two facts join the two ways this is computed. A sum over the 256 positions of the concatenated row splits into the
  sum over the first 128, the next 64 and the last 64 positions: only commutativity and associativity of addition are
  used, which hold for every extended real, so no finiteness is needed. And a sum of a table's rows weighted by the
  indicator of one row number is that row: the other terms are 0 · y = 0 (for every extended real y) and the one left
  is 1 · y = y.
-/
import Idealize.ShloMosaic.Lib.ValueIdx
import Idealize.ShloMosaic.PureOps.Ideal.Laws

noncomputable section

namespace Cert.NodeSpec

open Idealize.ShloMosaic Idealize.ShloMosaic.ValueIdx

/-- The concatenated row: positions 0–127 the node's features, 128–191 the aggregated edge features, 192–255 the
    gathered globals. -/
def cat3 (x : Fin 128 → EReal) (a : Fin 64 → EReal) (g : Fin 64 → EReal) (k : Fin 256) : EReal :=
  if h1 : k.val < 128 then x ⟨k.val, h1⟩
  else if h2 : k.val < 192 then a ⟨k.val - 128, by omega⟩
  else g ⟨k.val - 192, by omega⟩

/-- A weighted sum over the concatenated row is the sum of the three pieces' weighted sums, each against its own
    rows of the weights. -/
theorem sum_cat3 (x : Fin 128 → EReal) (a : Fin 64 → EReal) (g : Fin 64 → EReal) (w : Fin 256 → EReal) :
    ∑ k : Fin 256, cat3 x a g k * w k
      = (∑ k : Fin 128, x k * w ⟨k.val, by omega⟩ + ∑ k : Fin 64, a k * w ⟨128 + k.val, by omega⟩)
        + ∑ k : Fin 64, g k * w ⟨192 + k.val, by omega⟩ := by
  have e : ∑ k : Fin 256, cat3 x a g k * w k = ∑ k : Fin (128 + 128), cat3 x a g k * w k := rfl
  rw [e, Fin.sum_univ_add]
  have e2 : ∑ i : Fin 128, cat3 x a g (Fin.natAdd 128 i) * w (Fin.natAdd 128 i)
      = ∑ i : Fin (64 + 64), cat3 x a g (Fin.natAdd 128 i) * w (Fin.natAdd 128 i) := rfl
  rw [e2, Fin.sum_univ_add, ← add_assoc]
  refine congrArg₂ (· + ·) (congrArg₂ (· + ·) ?_ ?_) ?_
  · refine Finset.sum_congr rfl fun k _ => ?_
    have hk : (Fin.castAdd 128 k : Fin (128 + 128)).val < 128 := k.isLt
    show cat3 x a g (Fin.castAdd 128 k) * w (Fin.castAdd 128 k) = _
    unfold cat3
    rw [dif_pos hk]
    rfl
  · refine Finset.sum_congr rfl fun k _ => ?_
    have hv : (Fin.natAdd 128 (Fin.castAdd 64 k) : Fin (128 + 128)).val = 128 + k.val := rfl
    have hk1 : ¬ (Fin.natAdd 128 (Fin.castAdd 64 k) : Fin (128 + 128)).val < 128 := by rw [hv]; omega
    have hk2 : (Fin.natAdd 128 (Fin.castAdd 64 k) : Fin (128 + 128)).val < 192 := by rw [hv]; have := k.isLt; omega
    unfold cat3
    rw [dif_neg hk1, dif_pos hk2]
    exact congrArg₂ (· * ·) (congrArg a (Fin.ext (by show 128 + k.val - 128 = k.val; omega))) rfl
  · refine Finset.sum_congr rfl fun k _ => ?_
    have hv : (Fin.natAdd 128 (Fin.natAdd 64 k) : Fin (128 + 128)).val = 128 + (64 + k.val) := rfl
    have hk1 : ¬ (Fin.natAdd 128 (Fin.natAdd 64 k) : Fin (128 + 128)).val < 128 := by rw [hv]; omega
    have hk2 : ¬ (Fin.natAdd 128 (Fin.natAdd 64 k) : Fin (128 + 128)).val < 192 := by rw [hv]; omega
    unfold cat3
    rw [dif_neg hk1, dif_neg hk2]
    exact congrArg₂ (· * ·) (congrArg g (Fin.ext (by show 128 + (64 + k.val) - 192 = k.val; omega)))
      (congrArg w (Fin.ext (by show 128 + (64 + k.val) = 192 + k.val; omega)))

/-- A sum of the entries `f j` weighted by the indicator of `j = r` is `f r`. -/
theorem indicator_sum {n : Nat} (r : Fin n) (f c : Fin n → EReal) (hc : ∀ j, c j = if j = r then 1 else 0) :
    ∑ j : Fin n, c j * f j = f r := by
  rw [Finset.sum_eq_single r]
  · rw [hc, if_pos rfl, one_mul]
  · intro j _ hj
    rw [hc, if_neg hj, zero_mul]
  · intro h
    exact absurd (Finset.mem_univ r) h

/-- The hidden layer before the rectifier, at hidden unit `h`: the row against column `h` of the first weights, plus
    the first bias. -/
def hiddenPre (row : Fin 256 → EReal) (W1 : Fin 256 → Fin 256 → EReal) (b1 : Fin 256 → EReal) (h : Fin 256) : EReal :=
  (∑ k : Fin 256, row k * W1 k h) + b1 h

/-- The update's output `o` for a row: the rectified hidden layer against column `o` of the second weights, plus the
    second bias. -/
def nodeOut (row : Fin 256 → EReal) (W1 : Fin 256 → Fin 256 → EReal) (b1 : Fin 256 → EReal)
    (W2 : Fin 256 → Fin 128 → EReal) (b2 : Fin 128 → EReal) (o : Fin 128) : EReal :=
  (∑ h : Fin 256, max (hiddenPre row W1 b1 h) 0 * W2 h o) + b2 o

/-- The hidden layer of a concatenated row as the three partial products summed in the order the fused computation
    adds them: (features + aggregated) + gathered, then the bias. -/
theorem hiddenPre_cat3 (x : Fin 128 → EReal) (a : Fin 64 → EReal) (g : Fin 64 → EReal)
    (W1 : Fin 256 → Fin 256 → EReal) (b1 : Fin 256 → EReal) (h : Fin 256) :
    hiddenPre (cat3 x a g) W1 b1 h
      = ((∑ k : Fin 128, x k * W1 ⟨k.val, by omega⟩ h + ∑ k : Fin 64, a k * W1 ⟨128 + k.val, by omega⟩ h)
          + ∑ k : Fin 64, g k * W1 ⟨192 + k.val, by omega⟩ h) + b1 h := by
  unfold hiddenPre
  rw [sum_cat3 x a g (fun k => W1 k h)]

/-- THE WHOLE RESULT, index by index: row `i`, output `o`, from the node features `X`, the aggregated edge features
    `A`, the table of globals `U` read at the row the node's graph number `V i` names (reduced mod 64, so that the
    function is total; in range the reduction does nothing), the two layers' weights and biases. -/
def Gat (X : (⟨2, ![100000, 128]⟩ : Shape).Idx → EReal) (A : (⟨2, ![100000, 64]⟩ : Shape).Idx → EReal)
    (U : (⟨2, ![64, 64]⟩ : Shape).Idx → EReal) (V : (⟨1, ![100000]⟩ : Shape).Idx → BitVec 32)
    (W1 : (⟨2, ![256, 256]⟩ : Shape).Idx → EReal) (B1 : (⟨1, ![256]⟩ : Shape).Idx → EReal)
    (W2 : (⟨2, ![256, 128]⟩ : Shape).Idx → EReal) (B2 : (⟨1, ![128]⟩ : Shape).Idx → EReal)
    (i : Fin 100000) (o : Fin 128) : EReal :=
  nodeOut (cat3 (fun k => X (ix2 i k)) (fun k => A (ix2 i k))
      (fun k => U (ix2 (⟨(V (ix1 i)).toNat % 64, Nat.mod_lt _ (by decide)⟩ : Fin 64) k)))
    (fun k h => W1 (ix2 k h)) (fun h => B1 (ix1 h)) (fun h o => W2 (ix2 h o)) (fun o => B2 (ix1 o)) o

/-- The same as one array. -/
def G (X : (⟨2, ![100000, 128]⟩ : Shape).Idx → EReal) (A : (⟨2, ![100000, 64]⟩ : Shape).Idx → EReal)
    (U : (⟨2, ![64, 64]⟩ : Shape).Idx → EReal) (V : (⟨1, ![100000]⟩ : Shape).Idx → BitVec 32)
    (W1 : (⟨2, ![256, 256]⟩ : Shape).Idx → EReal) (B1 : (⟨1, ![256]⟩ : Shape).Idx → EReal)
    (W2 : (⟨2, ![256, 128]⟩ : Shape).Idx → EReal) (B2 : (⟨1, ![128]⟩ : Shape).Idx → EReal) :
    (⟨2, ![100000, 128]⟩ : Shape).Idx → EReal :=
  fun j => Gat X A U V W1 B1 W2 B2 (j 0) (j 1)

end Cert.NodeSpec

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.RefValue.lean ====
/-
  The reference's result, index by index, is the node update of NodeSpec.

  The reference concatenates, for node i, the node's 128 features, its 64 aggregated edge features and the 64 entries
  of the row of the table of globals that the node's graph number v[i] selects, multiplies by the first weights, adds
  the first bias, rectifies, multiplies by the second weights and adds the second bias. Read at row i and output o this
  is NodeSpec's `Gat`, once the gathered row is identified: jnp's `u[v]` first adds 64 to a negative v[i], then
  gathers with the row number clamped into [0, 63]; for 0 ≤ v[i] < 64 neither the wrap nor the clamp changes it, so
  the gathered row is row v[i] of the table.
-/
import proofs.«407637_j80032420593874_2_alg».proof.Proof.Gen.ReferenceIdeal.Read
import proofs.«407637_j80032420593874_2_alg».proof.Proof.NodeSpec
import proofs.«407637_j80032420593874_2_alg».proof.Proof.LibRowGather
import Idealize.ShloMosaic.Lib.Pipeline.Value
import Idealize.ShloMosaic.Lib.Affine

noncomputable section

namespace Cert.ReferenceIdeal.RefValue

open Cert.ReferenceIdeal Cert.ReferenceIdeal.Gen Cert.ReferenceIdeal.Read Cert.NodeSpec
open Idealize.ShloMosaic Idealize.ShloMosaic.ValueIdx

/-- The start-index column at (i, 0) is the graph number v[i] itself when 0 ≤ v[i] < 64: the comparison with zero
    fails, so the select keeps v[i] and not v[i] + 64. -/
theorem start_index (x4 : IVec S100000 32) (i : Fin 100000) (hv : (x4 (ix1 i)).toNat < 64) :
    val_main_v10 (F := Ideal) x4 (ix2 i (0 : Fin 1)) = x4 (ix1 i) := by
  rw [val_main_v10_apply]
  have e : idx_main_v10 (ix2 i (0 : Fin 1)) = ix1 i := funext fun a => Fin.ext (by match a with | ⟨0, _⟩ => rfl)
  rw [e, val_main_v9_apply, val_main_v6_apply, val_main_v5_apply]
  have hc : IntOp.cmpi .slt (x4 (ix1 i)) (val_main_c (F := Ideal) (idx_main_v5 (ix1 i))) = 0#1 := by
    apply eq_zero_of_ne_one
    intro h1
    have h2 := IntOp.cmpi_slt.1 h1
    have hz : (val_main_c (F := Ideal) (idx_main_v5 (ix1 i))).toInt = 0 := by rw [val_main_c_apply]; decide
    rw [hz, BitVec.toInt_eq_toNat_cond] at h2
    have hw := (x4 (ix1 i)).isLt
    split at h2 <;> omega
  rw [hc, select_zero]

/-- The gathered piece at (i, q): row v[i] of the table of globals, column q. -/
theorem gathered_apply (x3 : FVec Ideal S64x64 .f32) (x4 : IVec S100000 32) (i : Fin 100000) (q : Fin 64)
    (hv : (x4 (ix1 i)).toNat < 64) :
    val_main_v11 (F := Ideal) x3 x4 (ix2 i q)
      = x3 (ix2 (⟨(x4 (ix1 i)).toNat % 64, Nat.mod_lt _ (by decide)⟩ : Fin 64) q) := by
  unfold val_main_v11
  show Host.gather (RowGather.rowDims 64 64 100000 Facts₀.gather_S64x64_S100000x1_S100000x64_1_0_n_n_0_1_164_wf) x3
      (val_main_v10 (F := Ideal) x4) (ix2 i q) = _
  refine (RowGather.gather_rows_apply (by decide) _ x3 (val_main_v10 (F := Ideal) x4) i q).trans ?_
  refine congrArg x3 (congrArg (fun r => ix2 r q) (Fin.ext ?_))
  show min (val_main_v10 (F := Ideal) x4 (ix2 i (0 : Fin 1))).toInt.toNat (64 - 1) = (x4 (ix1 i)).toNat % 64
  rw [start_index x4 i hv]
  have hw := (x4 (ix1 i)).isLt
  have ht : (x4 (ix1 i)).toInt = ((x4 (ix1 i)).toNat : Int) := by
    rw [BitVec.toInt_eq_toNat_cond, if_pos (by omega)]
  rw [ht, Int.toNat_natCast, Nat.mod_eq_of_lt hv]
  omega

/-- The concatenated row of node i at position k is NodeSpec's `cat3` of the three pieces' rows. -/
theorem concat_apply (x0 : FVec Ideal S100000x128 .f32) (x1 : IVec S2x1600000 32) (x2 : FVec Ideal S1600000x64 .f32)
    (x3 : FVec Ideal S64x64 .f32) (x4 : IVec S100000 32) (i : Fin 100000) (k : Fin 256)
    (hv : (x4 (ix1 i)).toNat < 64) :
    val_main_v12 (F := Ideal) x0 x1 x2 x3 x4 (ix2 i k)
      = cat3 (fun k => x0 (ix2 i k)) (fun k => val_main_v4 (F := Ideal) x1 x2 (ix2 i k))
          (fun k => x3 (ix2 (⟨(x4 (ix1 i)).toNat % 64, Nat.mod_lt _ (by decide)⟩ : Fin 64) k)) k := by
  unfold val_main_v12 cat3
  by_cases h1 : k.val < 128
  · rw [dif_pos h1]
    refine concatenate_apply_piece (t := S100000x256) (1 : Fin 2)
      [⟨S100000x128, x0⟩, ⟨S100000x64, val_main_v4 (F := Ideal) x1 x2⟩, ⟨S100000x64, val_main_v11 (F := Ideal) x3 x4⟩]
      concatenates_S100000x128_S100000x64_S100000x64_S100000x256_d1 (ix2 i k) 0 (by show (0 : Nat) < 3; omega)
      S100000x128 x0 rfl rfl 0 rfl (ix2 i ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 192
    · rw [dif_pos h2]
      refine concatenate_apply_piece (t := S100000x256) (1 : Fin 2)
        [⟨S100000x128, x0⟩, ⟨S100000x64, val_main_v4 (F := Ideal) x1 x2⟩, ⟨S100000x64, val_main_v11 (F := Ideal) x3 x4⟩]
        concatenates_S100000x128_S100000x64_S100000x64_S100000x256_d1 (ix2 i k) 1 (by show (1 : Nat) < 3; omega)
        S100000x64 (val_main_v4 (F := Ideal) x1 x2) rfl rfl 128 rfl (ix2 i ⟨k.val - 128, by omega⟩) (fun b hb => ?_) ?_
      · match b with
        | ⟨0, _⟩ => rfl
        | ⟨1, _⟩ => exact absurd rfl hb
      · show 128 + (k.val - 128) = k.val
        omega
    · rw [dif_neg h2]
      have hk : k.val - 192 < 64 := by have := k.isLt; omega
      refine Eq.trans ?_ (gathered_apply x3 x4 i ⟨k.val - 192, hk⟩ hv)
      refine concatenate_apply_piece (t := S100000x256) (1 : Fin 2)
        [⟨S100000x128, x0⟩, ⟨S100000x64, val_main_v4 (F := Ideal) x1 x2⟩, ⟨S100000x64, val_main_v11 (F := Ideal) x3 x4⟩]
        concatenates_S100000x128_S100000x64_S100000x64_S100000x256_d1 (ix2 i k) 2 (by show (2 : Nat) < 3; omega)
        S100000x64 (val_main_v11 (F := Ideal) x3 x4) rfl rfl 192 rfl (ix2 i ⟨k.val - 192, hk⟩) (fun b hb => ?_) ?_
      · match b with
        | ⟨0, _⟩ => rfl
        | ⟨1, _⟩ => exact absurd rfl hb
      · show 192 + (k.val - 192) = k.val
        omega

/-- THE REFERENCE IS THE NODE UPDATE: its result array is `G` of the arguments, the aggregated edge features being
    the reference's own scatter-add of the edge features by source node (`val_main_v4`). -/
theorem result_eq (x0 : FVec Ideal S100000x128 .f32) (x1 : IVec S2x1600000 32) (x2 : FVec Ideal S1600000x64 .f32)
    (x3 : FVec Ideal S64x64 .f32) (x4 : IVec S100000 32) (x5 : FVec Ideal S256x256 .f32) (x6 : FVec Ideal S256 .f32)
    (x7 : FVec Ideal S256x128 .f32) (x8 : FVec Ideal S128 .f32) (hv : ∀ i, (x4 i).toNat < 64) :
    val_main_v21 (F := Ideal) x0 x1 x2 x3 x4 x5 x6 x7 x8
      = G x0 (val_main_v4 (F := Ideal) x1 x2) x3 x4 x5 x6 x7 x8 := by
  funext j
  obtain ⟨i, o, rfl⟩ : ∃ (i : Fin 100000) (o : Fin 128), j = ix2 i o := ⟨j 0, j 1, eq_ix2 j⟩
  show _ = Gat x0 (val_main_v4 (F := Ideal) x1 x2) x3 x4 x5 x6 x7 x8 i o
  rw [val_main_v21_apply, val_main_v18_apply, val_main_v20_apply, val_main_v19_apply]
  unfold Gat nodeOut
  refine congrArg₂ (· + ·) (Finset.sum_congr rfl fun h _ => congrArg₂ (· * ·) ?_ ?_) ?_
  · have el : lidx_main_v18 (ix2 i o) h = ix2 i h := funext fun a => Fin.ext (by
      match a with
      | ⟨0, _⟩ => rfl
      | ⟨1, _⟩ => rfl)
    rw [el, val_main_v17_apply, val_main_v16_apply, val_main_v13_apply, val_main_v15_apply, val_main_v14_apply,
      val_main_call0_v0_apply, val_main_call0_cst_apply]
    unfold hiddenPre
    show max ((∑ k : Fin 256, _) + _) (Ideal.ofBits .f32 0x00000000#32) = _
    rw [Ideal.ofBits_zero_f32]
    refine congrArg₂ max (congrArg₂ (· + ·) (Finset.sum_congr rfl fun k _ => congrArg₂ (· * ·) ?_ ?_) ?_) rfl
    · have e1 : lidx_main_v13 (ix2 i h) k = ix2 i k := funext fun a => Fin.ext (by
        match a with
        | ⟨0, _⟩ => rfl
        | ⟨1, _⟩ => rfl)
      rw [e1]
      exact concat_apply x0 x1 x2 x3 x4 i k (hv (ix1 i))
    · exact congrArg x5 (funext fun a => Fin.ext (by
        match a with
        | ⟨0, _⟩ => rfl
        | ⟨1, _⟩ => rfl))
    · exact congrArg x6 (funext fun a => Fin.ext (by
        match a with
        | ⟨0, _⟩ => rfl))
  · exact congrArg x7 (funext fun a => Fin.ext (by
      match a with
      | ⟨0, _⟩ => rfl
      | ⟨1, _⟩ => rfl))
  · exact congrArg x8 (funext fun a => Fin.ext (by
      match a with
      | ⟨0, _⟩ => rfl))

end Cert.ReferenceIdeal.RefValue

end
-- ==== Proof.KernelArrays.lean ====
/-
  The arrays the fused kernel's windows stage, as @main's host operations leave them before the launch.

  @main aggregates the edge features (a scatter-add of the edge features into a zero [100000, 64] array at the rows
  the first row of the edge index names: `agg`), views the graph numbers as a [100000, 1] column and the two biases
  as [1, n] rows, and changes the float format of the table of globals and of the two weight matrices, which is the
  identity at the exact values. `Gm` is the node update `G` of the launch memory's arguments.
-/
import proofs.«407637_j80032420593874_2_alg».proof.Proof.Gen.KernelIdeal.Value
import proofs.«407637_j80032420593874_2_alg».proof.Proof.NodeSpec
import Idealize.ShloMosaic.Lib.StableHlo.Run

set_option maxRecDepth 16384

noncomputable section

namespace Cert.KernelIdeal.Whole

open Cert.KernelIdeal Cert.KernelIdeal.Gen Cert.KernelIdeal.Value Cert.NodeSpec
open Idealize.ShloMosaic Idealize.ShloMosaic.TcCoe Idealize.SL.Sem Idealize.ShloMosaic.ValueIdx Idealize.ShloMosaic.StableHlo
open Idealize.ShloMosaic.Pipeline (Dat)

/-- The aggregated edge features: the edge features scatter-added into a zero [100000, 64] array at the rows that the
    first row of the edge index names. -/
def agg (E : IVec S2x1600000 32) (A : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast _ (extractStridedSlice S1x1600000 ![0, 0] E slices_S2x1600000_S1x1600000_0_0) shapeCasts_S1x1600000_S1600000))
    A

variable (m : (ℓ : Loc nD τ sig) → Buf (Elt Ideal) ℓ) (ρ : Dev nD → PrngReg)

/-- The result array as a function of the launch memory: `G` of the arguments. -/
def Gm (c : Dev nD) : S100000x128.Idx → EReal :=
  G (m ((c : Thread nD τ).loc main_arg0))
    (agg (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## The arrays the windows stage, as the host operations before the launch leave them -/

theorem V_agg (c : Dev nD) : (V m c main_v4 : S100000x64.Idx → EReal)
    = agg (m ((c : Thread nD τ).loc main_arg1)) (m ((c : Thread nD τ).loc main_arg2)) := by
  unfold agg
  dsimp only [Gen.V, Gen.hostOps0]; after_results; rfl

/- The aggregation is carried as one function of the edge index and the edge features from here on: both programs
   apply it to the same arguments, and nothing below looks inside it. -/
attribute [irreducible] agg

theorem V_graph (c : Dev nD) : (V m c main_v5 : S100000x1.Idx → BitVec 32)
    = shapeCast S100000x1 (m ((c : Thread nD τ).loc main_arg4)) shapeCasts_S100000_S100000x1 := by
  dsimp only [Gen.V, Gen.hostOps0]; after_results; rfl

theorem V_bias1 (c : Dev nD) : (V m c main_v6 : S1x256.Idx → EReal)
    = shapeCast S1x256 (m ((c : Thread nD τ).loc main_arg6)) shapeCasts_S256_S1x256 := by
  dsimp only [Gen.V, Gen.hostOps0]; after_results; rfl

theorem V_bias2 (c : Dev nD) : (V m c main_v7 : S1x128.Idx → EReal)
    = shapeCast S1x128 (m ((c : Thread nD τ).loc main_arg8)) shapeCasts_S128_S1x128 := by
  dsimp only [Gen.V, Gen.hostOps0]; after_results; rfl

theorem V_table (c : Dev nD) : (V m c main_v8 : S64x64.Idx → EReal) = m ((c : Thread nD τ).loc main_arg3) := by
  dsimp only [Gen.V, Gen.hostOps0]; after_results; rfl

theorem V_w1 (c : Dev nD) : (V m c main_v9 : S256x256.Idx → EReal) = m ((c : Thread nD τ).loc main_arg5) := by
  dsimp only [Gen.V, Gen.hostOps0]; after_results; rfl

theorem V_w2 (c : Dev nD) : (V m c main_v10 : S256x128.Idx → EReal) = m ((c : Thread nD τ).loc main_arg7) := by
  dsimp only [Gen.V, Gen.hostOps0]; after_results; rfl

end Cert.KernelIdeal.Whole

end
-- ==== Proof.KernelBlocks.lean ====
/-
  The blocks of a grid point, read off the arrays.

  The launch has 20 grid points. Point t stages rows 5000·t … 5000·t + 4999 of the node features, of the aggregated
  edge features and of the column of graph numbers, and the whole of the table of globals, of both weight matrices
  and of both biases. So row p of point t's blocks is row 5000·t + p of the arrays, and the resident blocks are the
  arrays themselves. A block's coordinate on an axis is always (block index) × (block extent) + (coordinate inside).
-/
import proofs.«407637_j80032420593874_2_alg».proof.Proof.KernelArrays
import Idealize.ShloMosaic.Lib.Pipeline.Value

set_option maxRecDepth 16384

noncomputable section

namespace Cert.KernelIdeal.Whole

open Cert.KernelIdeal Cert.KernelIdeal.Gen Cert.KernelIdeal.Value Cert.NodeSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The blocks of a grid point, read off the arrays -/

/-- The printed index maps, decided over the 20 grid points: the row-blocked windows (features, aggregated edge
    features, graph numbers, result) are at block (t, 0), the resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row p of grid point t's blocks is row 5000·t + p of the arrays. -/
def rowAt (t : Fin cfg0.N) (p : Fin 5000) : Fin 100000 :=
  ⟨t.val * 5000 + p.val, by have h1 : t.val < 20 := N_0 ▸ t.isLt; have h2 := p.isLt; omega⟩

theorem blk_features (c : Dev nD) (t : Fin cfg0.N) (p : Fin 5000) (k : Fin 128) :
    (iblk m c 0 t : S5000x128.Idx → EReal) (ix2 p k) = m ((c : Thread nD τ).loc main_arg0) (ix2 (rowAt t p) k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Reading window 1's block of point t off ANY [100000, 64] array: entry (p, k) of the block is entry (5000·t + p, k)
    of the array. Stated for an arbitrary array, so that nothing about the aggregated edge features is looked into. -/
theorem read_rows64 (X : (⟨S100000x64, .f32⟩ : BufTy).Contents (Elt Ideal)) (t : Fin cfg0.N) (p : Fin 5000) (k : Fin 64) :
    ((cfg0.win 1).blk t).view.read (Elt Ideal) X (ix2 p k) = X (ix2 (rowAt t p) k) := by
  obtain ⟨-, -, e0, e1, -⟩ := idx_facts t
  show X (((cfg0.win 1).blk t).view.emb (ix2 p k)) = _
  refine congrArg X (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 64 + 1 * k.val = k.val; rw [e1]; omega

theorem blk_agg (c : Dev nD) (t : Fin cfg0.N) (p : Fin 5000) (k : Fin 64) :
    (iblk m c 1 t : S5000x64.Idx → EReal) (ix2 p k)
      = agg (m ((c : Thread nD τ).loc main_arg1)) (m ((c : Thread nD τ).loc main_arg2)) (ix2 (rowAt t p) k) := by
  have hV : V m c (Pipeline.arrRef spec0 1) = agg (m ((c : Thread nD τ).loc main_arg1)) (m ((c : Thread nD τ).loc main_arg2)) :=
    V_agg m c
  unfold iblk
  rw [hV]
  exact read_rows64 _ t p k

theorem blk_graph (c : Dev nD) (t : Fin cfg0.N) (p : Fin 5000) :
    (iblk m c 2 t : S5000x1.Idx → BitVec 32) (ix2 p (0 : Fin 1)) = m ((c : Thread nD τ).loc main_arg4) (ix1 (rowAt t p)) := by
  obtain ⟨-, -, -, -, e0, e1, -⟩ := idx_facts t
  show (V m c main_v5 : S100000x1.Idx → BitVec 32) (((cfg0.win 2).blk t).view.emb (ix2 p (0 : Fin 1))) = _
  rw [V_graph]
  refine shapeCast_apply _ shapeCasts_S100000_S100000x1 _ (ix1 (rowAt t p)) ?_
  rw [Shape.rowMajor_val_two, Shape.rowMajor_val_one]
  show t.val * 5000 + p.val = (win0_2.index t (0 : Fin 2) * 5000 + 1 * p.val) * 1 + (win0_2.index t (1 : Fin 2) * 1 + 1 * 0)
  rw [e0, e1]; omega

theorem blk_table (c : Dev nD) (t : Fin cfg0.N) (j k : Fin 64) :
    (iblk m c 3 t : S64x64.Idx → EReal) (ix2 j k) = m ((c : Thread nD τ).loc main_arg3) (ix2 j k) := by
  obtain ⟨-, -, -, -, -, -, e0, e1, -⟩ := idx_facts t
  show (V m c main_v8 : S64x64.Idx → EReal) (((cfg0.win 3).blk t).view.emb (ix2 j k)) = _
  rw [V_table]
  refine congrArg (m ((c : Thread nD τ).loc main_arg3)) (funext fun a => Fin.ext ?_)
  match a with
  | ⟨0, _⟩ => show win0_3.index t (0 : Fin 2) * 64 + 1 * j.val = j.val; rw [e0]; omega
  | ⟨1, _⟩ => show win0_3.index t (1 : Fin 2) * 64 + 1 * k.val = k.val; rw [e1]; omega

theorem blk_w1 (c : Dev nD) (t : Fin cfg0.N) (k h : Fin 256) :
    (iblk m c 4 t : S256x256.Idx → EReal) (ix2 k h) = m ((c : Thread nD τ).loc main_arg5) (ix2 k h) := by
  obtain ⟨-, -, -, -, -, -, -, -, e0, e1, -⟩ := idx_facts t
  show (V m c main_v9 : S256x256.Idx → EReal) (((cfg0.win 4).blk t).view.emb (ix2 k h)) = _
  rw [V_w1]
  refine congrArg (m ((c : Thread nD τ).loc main_arg5)) (funext fun a => Fin.ext ?_)
  match a with
  | ⟨0, _⟩ => show win0_4.index t (0 : Fin 2) * 256 + 1 * k.val = k.val; rw [e0]; omega
  | ⟨1, _⟩ => show win0_4.index t (1 : Fin 2) * 256 + 1 * h.val = h.val; rw [e1]; omega

theorem blk_bias1 (c : Dev nD) (t : Fin cfg0.N) (h : Fin 256) :
    (iblk m c 5 t : S1x256.Idx → EReal) (ix2 (0 : Fin 1) h) = m ((c : Thread nD τ).loc main_arg6) (ix1 h) := by
  obtain ⟨-, -, -, -, -, -, -, -, -, -, e0, e1, -⟩ := idx_facts t
  show (V m c main_v6 : S1x256.Idx → EReal) (((cfg0.win 5).blk t).view.emb (ix2 (0 : Fin 1) h)) = _
  rw [V_bias1]
  refine shapeCast_apply _ shapeCasts_S256_S1x256 _ (ix1 h) ?_
  rw [Shape.rowMajor_val_two, Shape.rowMajor_val_one]
  show h.val = (win0_5.index t (0 : Fin 2) * 1 + 1 * 0) * 256 + (win0_5.index t (1 : Fin 2) * 256 + 1 * h.val)
  rw [e0, e1]; omega

theorem blk_w2 (c : Dev nD) (t : Fin cfg0.N) (h : Fin 256) (o : Fin 128) :
    (iblk m c 6 t : S256x128.Idx → EReal) (ix2 h o) = m ((c : Thread nD τ).loc main_arg7) (ix2 h o) := by
  obtain ⟨-, -, -, -, -, -, -, -, -, -, -, -, e0, e1, -⟩ := idx_facts t
  show (V m c main_v10 : S256x128.Idx → EReal) (((cfg0.win 6).blk t).view.emb (ix2 h o)) = _
  rw [V_w2]
  refine congrArg (m ((c : Thread nD τ).loc main_arg7)) (funext fun a => Fin.ext ?_)
  match a with
  | ⟨0, _⟩ => show win0_6.index t (0 : Fin 2) * 256 + 1 * h.val = h.val; rw [e0]; omega
  | ⟨1, _⟩ => show win0_6.index t (1 : Fin 2) * 128 + 1 * o.val = o.val; rw [e1]; omega

theorem blk_bias2 (c : Dev nD) (t : Fin cfg0.N) (o : Fin 128) :
    (iblk m c 7 t : S1x128.Idx → EReal) (ix2 (0 : Fin 1) o) = m ((c : Thread nD τ).loc main_arg8) (ix1 o) := by
  obtain ⟨-, -, -, -, -, -, -, -, -, -, -, -, -, -, e0, e1, -⟩ := idx_facts t
  show (V m c main_v7 : S1x128.Idx → EReal) (((cfg0.win 7).blk t).view.emb (ix2 (0 : Fin 1) o)) = _
  rw [V_bias2]
  refine shapeCast_apply _ shapeCasts_S128_S1x128 _ (ix1 o) ?_
  rw [Shape.rowMajor_val_two, Shape.rowMajor_val_one]
  show o.val = (win0_7.index t (0 : Fin 2) * 1 + 1 * 0) * 128 + (win0_7.index t (1 : Fin 2) * 128 + 1 * o.val)
  rw [e0, e1]; omega

end Cert.KernelIdeal.Whole

end
-- ==== Proof.LibPlainMatmul.lean ====
/-
  A plain matrix product on the matrix unit, read at an index.

  General: for any extents M, K, N. A product of an [M, K] block by a [K, N] block accumulated into the zero splat is, at
  the exact values, the sum over the contracted coordinate of the products of the entries: entry (a, b) of the result is
  the sum over c of A (a, c) times B (c, b). The accumulator contributes the real number zero, and no rounding or
  chunk order is left at the exact values. The same holds of the host's product of two matrices, which is the same sum;
  the two are joined here through that sum.
-/
import Idealize.ShloMosaic.Lib.StackMember
import Idealize.ShloMosaic.Lib.ValueIdx
import Idealize.ShloMosaic.PureOps.Ideal.Laws

noncomputable section

namespace Idealize.ShloMosaic.PlainMatmul

open Idealize.ShloMosaic Idealize.ShloMosaic.ValueIdx

/-- Entry (a, b) of an [M, K] by [K, N] product into a zero accumulator is the sum over c of A (a, c) * B (c, b). -/
theorem matmul_zero_plain_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Idealize.ShloMosaic.PlainMatmul

end
-- ==== Proof.KernelPayload.lean ====
/-
  What the fused kernel body computes from one grid point's blocks, entry by entry.

  At a grid point the body holds 5000 nodes' rows: their features (5000 × 128), their aggregated edge features
  (5000 × 64) and their graph numbers (a 5000 × 1 column), beside the whole table of globals (64 × 64), both layers'
  weights and both biases (as 1 × n rows). It forms the 5000 × 64 indicator matrix of "graph number of node p is j",
  multiplies it by the table (a sum over j of indicator × table entry: the selected row), and computes the hidden
  layer as three partial products — features against the first 128 rows of the first weights, aggregated edge
  features against the next 64, the selected rows of globals against the last 64 — added left to right, plus the
  bias, rectified; the output is the hidden layer against the second weights plus the second bias. Changes of float
  format in between are the identity at the exact values. Entry (p, q) of the stored block is therefore NodeSpec's
  `nodeOut` of row p's concatenated features.
-/
import proofs.«407637_j80032420593874_2_alg».proof.Proof.Gen.KernelIdeal.Skeleton
import proofs.«407637_j80032420593874_2_alg».proof.Proof.NodeSpec
import proofs.«407637_j80032420593874_2_alg».proof.Proof.LibPlainMatmul
import Idealize.ShloMosaic.Lib.Pipeline.Value
import Idealize.ShloMosaic.Lib.Affine
import Idealize.ShloMosaic.PureOps.IdealRules

noncomputable section

namespace Cert.KernelIdeal.Payload

open Cert.KernelIdeal Cert.KernelIdeal.Gen Cert.NodeSpec
open Idealize.ShloMosaic Idealize.ShloMosaic.ValueIdx Idealize.ShloMosaic.PlainMatmul

/-- The f32 pattern of 1.0 is the real number one. -/
theorem one_f32 : Ideal.ofBits .f32 0x3F800000#32 = 1 := IdealRules.sign_bit.ideal_onePat .f32

/-- The graph number of row p of the block, as a row number of the table of globals (reduced mod 64 to be total). -/
abbrev rowOf (x2 : IVec S5000x1 32) (p : Fin 5000) : Fin 64 :=
  ⟨(x2 (ix2 p (0 : Fin 1))).toNat % 64, Nat.mod_lt _ (by decide)⟩

/-- THE INDICATOR MATRIX at (p, j): one where the graph number of row p is j, zero elsewhere. The column of graph
    numbers is laid along the 64 lanes and compared with the lane number. -/
theorem indicator_apply (x2 : IVec S5000x1 32) (p : Fin 5000) (j : Fin 64)
    (hv : (x2 (ix2 p (0 : Fin 1))).toNat < 64) :
    (select (cmpi .eq (broadcastTo S5000x64 (shapeCast S5000x1 x2 shapeCasts_S5000x1_S5000x1) broadcasts_S5000x1_S5000x64)
        (iota .tc S5000x64 32 [1] iota_S5000x64_d1_w32))
      (broadcast S5000x64 (Scalar.ofBits (F := Ideal) .f32 0x3F800000#32))
      (broadcast S5000x64 (Scalar.ofBits (F := Ideal) .f32 0x00000000#32)) : FVec Ideal S5000x64 .f32) (ix2 p j)
      = if j = rowOf x2 p then 1 else 0 := by
  rw [select_apply, broadcast_apply, broadcast_apply]
  have eb : broadcastTo S5000x64 (shapeCast S5000x1 x2 shapeCasts_S5000x1_S5000x1) broadcasts_S5000x1_S5000x64 (ix2 p j)
      = x2 (ix2 p (0 : Fin 1)) := by
    rw [shapeCast_self]
    exact broadcastTo_apply x2 broadcasts_S5000x1_S5000x64 (ix2 p j) (ix2 p (0 : Fin 1)) (fun a => by
      match a with
      | ⟨0, _⟩ => show p.val = if (5000 : Nat) = 1 then 0 else p.val; rw [if_neg (by decide)]
      | ⟨1, _⟩ => show 0 = if (1 : Nat) = 1 then 0 else j.val; rw [if_pos rfl])
  have ei : iota .tc S5000x64 32 [1] iota_S5000x64_d1_w32 (ix2 p j) = BitVec.ofNat 32 j.val :=
    iota_single_apply .tc S5000x64 32 1 iota_S5000x64_d1_w32 (ix2 p j)
  show Scalar.select (IntOp.cmpi .eq (broadcastTo S5000x64 (shapeCast S5000x1 x2 shapeCasts_S5000x1_S5000x1)
      broadcasts_S5000x1_S5000x64 (ix2 p j)) (iota .tc S5000x64 32 [1] iota_S5000x64_d1_w32 (ix2 p j)))
    (Ideal.ofBits .f32 0x3F800000#32) (Ideal.ofBits .f32 0x00000000#32) = _
  rw [eb, ei, one_f32, Ideal.ofBits_zero_f32]
  have hj := j.isLt
  by_cases h : x2 (ix2 p (0 : Fin 1)) = BitVec.ofNat 32 j.val
  · have hr : j = rowOf x2 p := Fin.ext (by
      show j.val = (x2 (ix2 p (0 : Fin 1))).toNat % 64
      rw [h, BitVec.toNat_ofNat]
      omega)
    rw [IntOp.cmpi_eq.2 h, select_one, if_pos hr]
  · have hr : ¬ j = rowOf x2 p := fun e => h (by
      have e' : j.val = (x2 (ix2 p (0 : Fin 1))).toNat % 64 := congrArg Fin.val e
      rw [Nat.mod_eq_of_lt hv] at e'
      rw [e', BitVec.ofNat_toNat, BitVec.setWidth_eq])
    rw [eq_zero_of_ne_one (fun e => h (IntOp.cmpi_eq.1 e)), select_zero, if_neg hr]

/-- THE SELECTED GLOBALS at (p, k): the indicator matrix times the table is row (graph number of p) of the table. -/
theorem gathered_apply (x2 : IVec S5000x1 32) (x3 : FVec Ideal S64x64 .bf16) (p : Fin 5000) (k : Fin 64)
    (hv : (x2 (ix2 p (0 : Fin 1))).toNat < 64) :
    matmul (F := Ideal) dot_S5000x64_S64x64_S5000x64_1_0_0_1_n_n none
      (truncf .bf16 (select (cmpi .eq (broadcastTo S5000x64 (shapeCast S5000x1 x2 shapeCasts_S5000x1_S5000x1) broadcasts_S5000x1_S5000x64)
          (iota .tc S5000x64 32 [1] iota_S5000x64_d1_w32))
        (broadcast S5000x64 (Scalar.ofBits (F := Ideal) .f32 0x3F800000#32))
        (broadcast S5000x64 (Scalar.ofBits (F := Ideal) .f32 0x00000000#32)) : FVec Ideal S5000x64 .f32) bitsLt_bf16_f32)
      (shapeCast S64x64 x3 shapeCasts_S64x64_S64x64) (constant S5000x64 .f32 0x00000000#32) (ix2 p k)
      = x3 (ix2 (rowOf x2 p) k) := by
  rw [shapeCast_self x3]
  refine (matmul_zero_plain_apply (M := 5000) (K := 64) (N := 64) (φ₁ := .bf16) (φ₂ := .bf16) none _ x3 p k).trans ?_
  exact indicator_sum (rowOf x2 p) (fun j => x3 (ix2 j k)) _ (fun j => indicator_apply x2 p j hv)

/-- Rows 0–127, 128–191 and 192–255 of the first weights, cut out of the loaded 256 × 256 block. -/
theorem w1_top (x4 : FVec Ideal S256x256 .bf16) (k : Fin 128) (h : Fin 256) :
    extractStridedSlice S128x256 ![0, 0] (shapeCast S256x256 x4 shapeCasts_S256x256_S256x256) slices_S256x256_o0_0_S128x256 (ix2 k h)
      = x4 (ix2 (⟨k.val, by omega⟩ : Fin 256) h) := by
  rw [shapeCast_self]
  exact extractStridedSlice_apply ![0, 0] x4 slices_S256x256_o0_0_S128x256 (ix2 k h) (ix2 (⟨k.val, by omega⟩ : Fin 256) h) (fun a => by
    match a with
    | ⟨0, _⟩ => show k.val = 0 + k.val; omega
    | ⟨1, _⟩ => show h.val = 0 + h.val; omega)

theorem w1_mid (x4 : FVec Ideal S256x256 .bf16) (k : Fin 64) (h : Fin 256) :
    extractStridedSlice S64x256 ![128, 0] (shapeCast S256x256 x4 shapeCasts_S256x256_S256x256) slices_S256x256_o128_0_S64x256 (ix2 k h)
      = x4 (ix2 (⟨128 + k.val, by omega⟩ : Fin 256) h) := by
  rw [shapeCast_self]
  exact extractStridedSlice_apply ![128, 0] x4 slices_S256x256_o128_0_S64x256 (ix2 k h) (ix2 (⟨128 + k.val, by omega⟩ : Fin 256) h) (fun a => by
    match a with
    | ⟨0, _⟩ => show 128 + k.val = 128 + k.val; rfl
    | ⟨1, _⟩ => show h.val = 0 + h.val; omega)

theorem w1_bot (x4 : FVec Ideal S256x256 .bf16) (k : Fin 64) (h : Fin 256) :
    extractStridedSlice S64x256 ![192, 0] (shapeCast S256x256 x4 shapeCasts_S256x256_S256x256) slices_S256x256_o192_0_S64x256 (ix2 k h)
      = x4 (ix2 (⟨192 + k.val, by omega⟩ : Fin 256) h) := by
  rw [shapeCast_self]
  exact extractStridedSlice_apply ![192, 0] x4 slices_S256x256_o192_0_S64x256 (ix2 k h) (ix2 (⟨192 + k.val, by omega⟩ : Fin 256) h) (fun a => by
    match a with
    | ⟨0, _⟩ => show 192 + k.val = 192 + k.val; rfl
    | ⟨1, _⟩ => show h.val = 0 + h.val; omega)

/-- A bias kept as a 1 × n row and laid over the 5000 rows reads, at (p, h), the row's entry h. -/
theorem bias1_apply (x5 : FVec Ideal S1x256 .f32) (p : Fin 5000) (h : Fin 256) :
    broadcastTo S5000x256 (shapeCast S1x256 x5 shapeCasts_S1x256_S1x256) broadcasts_S1x256_S5000x256 (ix2 p h)
      = x5 (ix2 (0 : Fin 1) h) := by
  rw [shapeCast_self]
  exact broadcastTo_apply x5 broadcasts_S1x256_S5000x256 (ix2 p h) (ix2 (0 : Fin 1) h) (fun a => by
    match a with
    | ⟨0, _⟩ => show 0 = if (1 : Nat) = 1 then 0 else p.val; rw [if_pos rfl]
    | ⟨1, _⟩ => show h.val = if (256 : Nat) = 1 then 0 else h.val; rw [if_neg (by decide)])

theorem bias2_apply (x7 : FVec Ideal S1x128 .f32) (p : Fin 5000) (q : Fin 128) :
    broadcastTo S5000x128 (shapeCast S1x128 x7 shapeCasts_S1x128_S1x128) broadcasts_S1x128_S5000x128 (ix2 p q)
      = x7 (ix2 (0 : Fin 1) q) := by
  rw [shapeCast_self]
  exact broadcastTo_apply x7 broadcasts_S1x128_S5000x128 (ix2 p q) (ix2 (0 : Fin 1) q) (fun a => by
    match a with
    | ⟨0, _⟩ => show 0 = if (1 : Nat) = 1 then 0 else p.val; rw [if_pos rfl]
    | ⟨1, _⟩ => show q.val = if (128 : Nat) = 1 then 0 else q.val; rw [if_neg (by decide)])

/-- The block's concatenated row p: features, aggregated edge features, selected globals. -/
abbrev rowCat (x0 : FVec Ideal S5000x128 .f32) (x1 : FVec Ideal S5000x64 .f32) (x2 : IVec S5000x1 32)
    (x3 : FVec Ideal S64x64 .bf16) (p : Fin 5000) : Fin 256 → EReal :=
  cat3 (fun k => x0 (ix2 p k)) (fun k => x1 (ix2 p k)) (fun k => x3 (ix2 (rowOf x2 p) k))

/-- THE RECTIFIED HIDDEN LAYER at (p, h). -/
theorem hidden_apply (x0 : FVec Ideal S5000x128 .f32) (x1 : FVec Ideal S5000x64 .f32) (x2 : IVec S5000x1 32)
    (x3 : FVec Ideal S64x64 .bf16) (x4 : FVec Ideal S256x256 .bf16) (x5 : FVec Ideal S1x256 .f32) (p : Fin 5000) (h : Fin 256)
    (hv : (x2 (ix2 p (0 : Fin 1))).toNat < 64) :
    k0_pay2 (F := Ideal) x2 x3 x4 x0 x1 x5 (ix2 p h)
      = max (hiddenPre (rowCat x0 x1 x2 x3 p) (fun k h => x4 (ix2 k h)) (fun h => x5 (ix2 (0 : Fin 1) h)) h) 0 := by
  rw [hiddenPre_cat3]
  unfold k0_pay2
  dsimp only
  rw [truncf_apply, maximumf_apply, addf_apply, addf_apply, addf_apply, broadcast_apply, bias1_apply]
  refine congrArg₂ max (congrArg₂ (· + ·) (congrArg₂ (· + ·) (congrArg₂ (· + ·) ?_ ?_) ?_) rfl) ?_
  · refine (matmul_zero_plain_apply (M := 5000) (K := 128) (N := 256) (φ₁ := .bf16) (φ₂ := .bf16) none _ _ p h).trans ?_
    exact Finset.sum_congr rfl fun k _ => congrArg₂ (· * ·) rfl (w1_top x4 k h)
  · refine (matmul_zero_plain_apply (M := 5000) (K := 64) (N := 256) (φ₁ := .bf16) (φ₂ := .bf16) none _ _ p h).trans ?_
    refine Finset.sum_congr rfl fun k _ => congrArg₂ (· * ·) ?_ (w1_mid x4 k h)
    rw [truncf_apply, shapeCast_self]
  · refine (matmul_zero_plain_apply (M := 5000) (K := 64) (N := 256) (φ₁ := .bf16) (φ₂ := .bf16) none _ _ p h).trans ?_
    refine Finset.sum_congr rfl fun k _ => congrArg₂ (· * ·) ?_ (w1_bot x4 k h)
    rw [truncf_apply]
    exact gathered_apply x2 x3 p k hv
  · exact Ideal.ofBits_zero_f32

/-- THE STORED BLOCK at (p, q): the node update of row p's concatenated features, output q. -/
theorem payload_apply (x0 : FVec Ideal S5000x128 .f32) (x1 : FVec Ideal S5000x64 .f32) (x2 : IVec S5000x1 32)
    (x3 : FVec Ideal S64x64 .bf16) (x4 : FVec Ideal S256x256 .bf16) (x5 : FVec Ideal S1x256 .f32)
    (x6 : FVec Ideal S256x128 .bf16) (x7 : FVec Ideal S1x128 .f32) (p : Fin 5000) (q : Fin 128)
    (hv : (x2 (ix2 p (0 : Fin 1))).toNat < 64) :
    k0_pay1 (F := Ideal) (k0_pay2 x2 x3 x4 x0 x1 x5) (k0_pay3 x6) (constant S5000x128 .f32 0x00000000#32) x7 (ix2 p q)
      = nodeOut (rowCat x0 x1 x2 x3 p) (fun k h => x4 (ix2 k h)) (fun h => x5 (ix2 (0 : Fin 1) h))
          (fun h o => x6 (ix2 h o)) (fun o => x7 (ix2 (0 : Fin 1) o)) q := by
  unfold k0_pay1 k0_pay3 nodeOut
  dsimp only
  rw [addf_apply, bias2_apply, shapeCast_self]
  refine congrArg₂ (· + ·) ?_ rfl
  refine (matmul_zero_plain_apply (M := 5000) (K := 256) (N := 128) (φ₁ := .bf16) (φ₂ := .bf16) none _ x6 p q).trans ?_
  exact Finset.sum_congr rfl fun h _ => congrArg₂ (· * ·) (hidden_apply x0 x1 x2 x3 x4 x5 p h hv) rfl

/-- THE STORED BLOCK AGAINST THE WHOLE ARRAYS: if row p of the point's blocks is row i of the arrays (features,
    aggregated edge features, graph number) and the resident blocks are the whole tables, then entry (p, q) of the
    stored block is entry (i, q) of the node update `Gat` of the arrays. -/
theorem payload_eq_Gat (x0 : FVec Ideal S5000x128 .f32) (x1 : FVec Ideal S5000x64 .f32) (x2 : IVec S5000x1 32)
    (x3 : FVec Ideal S64x64 .bf16) (x4 : FVec Ideal S256x256 .bf16) (x5 : FVec Ideal S1x256 .f32)
    (x6 : FVec Ideal S256x128 .bf16) (x7 : FVec Ideal S1x128 .f32)
    (X : (⟨2, ![100000, 128]⟩ : Shape).Idx → EReal) (A : (⟨2, ![100000, 64]⟩ : Shape).Idx → EReal)
    (U : (⟨2, ![64, 64]⟩ : Shape).Idx → EReal) (V : (⟨1, ![100000]⟩ : Shape).Idx → BitVec 32)
    (W1 : (⟨2, ![256, 256]⟩ : Shape).Idx → EReal) (B1 : (⟨1, ![256]⟩ : Shape).Idx → EReal)
    (W2 : (⟨2, ![256, 128]⟩ : Shape).Idx → EReal) (B2 : (⟨1, ![128]⟩ : Shape).Idx → EReal)
    (p : Fin 5000) (q : Fin 128) (i : Fin 100000)
    (h0 : ∀ k, x0 (ix2 p k) = X (ix2 i k)) (h1 : ∀ k, x1 (ix2 p k) = A (ix2 i k))
    (h2 : x2 (ix2 p (0 : Fin 1)) = V (ix1 i)) (h3 : ∀ j k, x3 (ix2 j k) = U (ix2 j k))
    (h4 : ∀ k h, x4 (ix2 k h) = W1 (ix2 k h)) (h5 : ∀ h, x5 (ix2 (0 : Fin 1) h) = B1 (ix1 h))
    (h6 : ∀ h o, x6 (ix2 h o) = W2 (ix2 h o)) (h7 : ∀ o, x7 (ix2 (0 : Fin 1) o) = B2 (ix1 o))
    (hv : (V (ix1 i)).toNat < 64) :
    k0_pay1 (F := Ideal) (k0_pay2 x2 x3 x4 x0 x1 x5) (k0_pay3 x6) (constant S5000x128 .f32 0x00000000#32) x7 (ix2 p q)
      = Gat X A U V W1 B1 W2 B2 i q := by
  rw [payload_apply x0 x1 x2 x3 x4 x5 x6 x7 p q (by rw [h2]; exact hv)]
  unfold Gat
  have e0 : (fun k => x0 (ix2 p k)) = fun k => X (ix2 i k) := funext h0
  have e1 : (fun k => x1 (ix2 p k)) = fun k => A (ix2 i k) := funext h1
  have er : rowOf x2 p = (⟨(V (ix1 i)).toNat % 64, Nat.mod_lt _ (by decide)⟩ : Fin 64) :=
    Fin.ext (by show (x2 (ix2 p (0 : Fin 1))).toNat % 64 = _; rw [h2])
  have e3 : (fun k => x3 (ix2 (rowOf x2 p) k))
      = fun k => U (ix2 (⟨(V (ix1 i)).toNat % 64, Nat.mod_lt _ (by decide)⟩ : Fin 64) k) :=
    funext fun k => by rw [er]; exact h3 _ k
  have e4 : (fun k h => x4 (ix2 k h)) = fun k h => W1 (ix2 k h) := funext fun k => funext fun h => h4 k h
  have e5 : (fun h => x5 (ix2 (0 : Fin 1) h)) = fun h => B1 (ix1 h) := funext h5
  have e6 : (fun h o => x6 (ix2 h o)) = fun h o => W2 (ix2 h o) := funext fun h => funext fun o => h6 h o
  have e7 : (fun o => x7 (ix2 (0 : Fin 1) o)) = fun o => B2 (ix1 o) := funext h7
  show nodeOut (cat3 (fun k => x0 (ix2 p k)) (fun k => x1 (ix2 p k)) (fun k => x3 (ix2 (rowOf x2 p) k)))
      (fun k h => x4 (ix2 k h)) (fun h => x5 (ix2 (0 : Fin 1) h)) (fun h o => x6 (ix2 h o)) (fun o => x7 (ix2 (0 : Fin 1) o)) q = _
  rw [e0, e1, e3, e4, e5, e6, e7]

end Cert.KernelIdeal.Payload

end
-- ==== Proof.KernelValue.lean ====
/-
  The fused kernel's result array is the node update of the argument arrays.

  What grid point t writes back is its body's stored block: by KernelPayload, entry (p, q) is the node update of row
  p of the point's blocks, which by KernelBlocks is row 5000·t + p of the arrays; the written block is rows
  5000·t … 5000·t + 4999 of the result. So point t writes block t of `G` of the arguments. Every row r of the result
  lies in the block of point r / 5000, so the 20 blocks cover the array, and the array after the launch is `G`.
-/
import proofs.«407637_j80032420593874_2_alg».proof.Proof.KernelBlocks
import proofs.«407637_j80032420593874_2_alg».proof.Proof.KernelPayload

set_option maxRecDepth 16384

noncomputable section

namespace Cert.KernelIdeal.Whole

open Cert.KernelIdeal Cert.KernelIdeal.Gen Cert.KernelIdeal.Value Cert.NodeSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What a point writes back, the cover, the array -/

theorem hz : (![0, 0] : Fin 2 → Nat) = fun _ => 0 := funext fun a => by fin_cases a <;> rfl

/-- WHAT POINT t WRITES BACK is block t of `G` of the arguments, where every graph number is in range. -/
theorem flushed_eq (hv : ∀ (c : Dev nD) i, (m ((c : Thread nD τ).loc main_arg4) i).toNat < 64) (c : Dev nD) (t : Fin cfg0.N) :
    (dats m 0 c).flushed 8 t = ((cfg0.win 8).blk t).view.read (Elt Ideal) (Gm m c) := by
  rw [flushed8]
  unfold out0_8
  rw [View.canon_unit_zero hz]
  simp only [View.ld_unit_zero (S := S5000x1) hz, View.ld_unit_zero (S := S64x64) hz, View.ld_unit_zero (S := S256x256) hz,
    View.ld_unit_zero (S := S5000x128) hz, View.ld_unit_zero (S := S5000x64) hz, View.ld_unit_zero (S := S1x256) hz,
    View.ld_unit_zero (S := S256x128) hz, View.ld_unit_zero (S := S1x128) hz]
  obtain ⟨-, -, -, -, -, -, -, -, -, -, -, -, -, -, -, -, e0, e1⟩ := idx_facts t
  funext j
  obtain ⟨p, q, rfl⟩ : ∃ (p : Fin 5000) (q : Fin 128), j = ix2 p q := ⟨j 0, j 1, eq_ix2 j⟩
  show k0_pay1 (F := Ideal) (k0_pay2 (iblk m c 2 t) (iblk m c 3 t) (iblk m c 4 t) (iblk m c 0 t) (iblk m c 1 t) (iblk m c 5 t))
      (k0_pay3 (iblk m c 6 t)) (constant S5000x128 .f32 0x00000000#32) (iblk m c 7 t) (ix2 p q)
    = Gm m c (((cfg0.win 8).blk t).view.emb (ix2 p q))
  refine (Payload.payload_eq_Gat (iblk m c 0 t) (iblk m c 1 t) (iblk m c 2 t) (iblk m c 3 t) (iblk m c 4 t) (iblk m c 5 t)
    (iblk m c 6 t) (iblk m c 7 t) (m ((c : Thread nD τ).loc main_arg0))
    (agg (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    p q (rowAt t p) (blk_features m c t p) (blk_agg m c t p) (blk_graph m c t p) (blk_table m c t) (blk_w1 m c t)
    (blk_bias1 m c t) (blk_w2 m c t) (blk_bias2 m c t) (hv c _)).trans ?_
  unfold Gm G
  refine congrArg₂ (Gat (m ((c : Thread nD τ).loc main_arg0))
    (agg (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)))
    (Fin.ext ?_) (Fin.ext ?_)
  · show t.val * 5000 + p.val = win0_8.index t (0 : Fin 2) * 5000 + 1 * p.val
    rw [e0]; omega
  · show q.val = win0_8.index t (1 : Fin 2) * 128 + 1 * q.val
    rw [e1]; omega

/-- An index of the result array is in point t's block iff each coordinate is in the block's range on its axis. -/
theorem mem_blk (t : Fin cfg0.N) (i : S100000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v11).slice (win0_8.rect t)).set ↔ _
  rw [View.set_slice_whole, Rect.mem_set_unit]
  exact Iff.rfl

/-- Every row of the result is in the block of the point its row number divided by 5000 names. -/
theorem cover (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, -, -, -, -, -, -, -, -, -, e0, e1⟩ := idx_facts t
  have ht : t.val = (i 0).val / 5000 := rfl
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    rw [e0, ht]; omega
  | ⟨1, _⟩ =>
    show win0_8.index t (1 : Fin 2) * 128 ≤ (i 1).val ∧ (i 1).val < win0_8.index t (1 : Fin 2) * 128 + 128
    rw [e1]; omega

/-- THE RESULT ARRAY after the launch is `G` of the arguments. -/
theorem final (hv : ∀ (c : Dev nD) i, (m ((c : Thread nD τ).loc main_arg4) i).toNat < 64) (c : Dev nD) :
    (dats m 0 c).arrAt 8 cfg0.N = Gm m c :=
  (dats m 0 c).arrAt_eq_of_cover 8 (Gm m c) (fun t _ => flushed_eq m hv c t) cover

/-- The kernel program's run: it ends with the result at `G` of the arguments and the arguments unchanged. -/
theorem run (hv : ∀ (c : Dev nD) i, (m ((c : Thread nD τ).loc main_arg4) i).toNat < 64) :
    θ_run defs (onTc (τ := τ) (main (F := Ideal))) ⟨m, fun _ => 0, ρ⟩ fun r => ∀ c : Dev nD,
      r.2.mem ((c : Thread nD τ).loc main_v11) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m hv c), (h c).2⟩) (run_blocks m ρ)

end Cert.KernelIdeal.Whole

end
-- ==== Proof.lean ====
/-
  The node update of a message-passing layer: a fused kernel against its jnp reference, over the extended reals.

  Both programs first aggregate, for every node, the features of the edges that leave it (the same scatter-add on the
  host in both). The reference then concatenates each node's features, its aggregated edge features and the row of the
  table of globals that the node's graph number selects, and applies a two-layer perceptron:
  out = max (row · W1 + b1) 0 · W2 + b2. The kernel computes the same per block of 5000 nodes without forming the
  concatenation: the selected row of globals as the product of an indicator matrix with the table, and row · W1 as
  three partial products against the three bands of W1's rows.

  The two results agree at every index because (1) a sum over the concatenated row splits into the three bands' sums
  (commutativity and associativity of addition only, valid for every extended real, so finiteness of the inputs is not
  used), and (2) the indicator-weighted sum of the table's rows is the row the graph number names — PROVIDED the graph
  number is one of 0 … 63. Outside that range the reference's gather wraps or clamps the row number and still reads a row of the
  table, while the indicator matrix has an all-zero row, so the results differ; the precondition therefore carries the
  conjunct 0 ≤ v[i] < 64, the range of the table the graph numbers index.

  Frames: the two kernel programs' are the generated ones; the reference's is its generated run with the result
  dropped. The idealization rewrote nothing, so `preserves` is trivial.
-/
import proofs.«407637_j80032420593874_2_alg».proof.Defs
import proofs.«407637_j80032420593874_2_alg».proof.Proof.Gen.Kernel
import proofs.«407637_j80032420593874_2_alg».proof.Proof.Gen.Kernel.Skeleton
import proofs.«407637_j80032420593874_2_alg».proof.Proof.Gen.Kernel.Launch
import proofs.«407637_j80032420593874_2_alg».proof.Proof.Gen.Kernel.Points
import proofs.«407637_j80032420593874_2_alg».proof.Proof.Gen.Kernel.Frame
import proofs.«407637_j80032420593874_2_alg».proof.Proof.Gen.KernelIdeal
import proofs.«407637_j80032420593874_2_alg».proof.Proof.Gen.KernelIdeal.Skeleton
import proofs.«407637_j80032420593874_2_alg».proof.Proof.Gen.KernelIdeal.Launch
import proofs.«407637_j80032420593874_2_alg».proof.Proof.Gen.KernelIdeal.Points
import proofs.«407637_j80032420593874_2_alg».proof.Proof.Gen.KernelIdeal.Frame
import proofs.«407637_j80032420593874_2_alg».proof.Proof.Gen.ReferenceIdeal
import proofs.«407637_j80032420593874_2_alg».proof.Proof.Gen.Pre_finite_inputs
import proofs.«407637_j80032420593874_2_alg».proof.Proof.Gen.KernelIdeal.Value
import proofs.«407637_j80032420593874_2_alg».proof.Proof.Gen.ReferenceIdeal.Run
import proofs.«407637_j80032420593874_2_alg».proof.Proof.Gen.ReferenceIdeal.Read
import proofs.«407637_j80032420593874_2_alg».proof.Proof.IndexRange
import proofs.«407637_j80032420593874_2_alg».proof.Proof.RefValue
import proofs.«407637_j80032420593874_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two programs' scatter-adds carry the same dimension numbers. -/
theorem scatter_eq : Cert.ReferenceIdeal.scatter_S100000x64_S1600000x1_S1600000x64_1_0_0_1
    = Cert.KernelIdeal.scatter_S100000x64_S1600000x1_S1600000x64_1_0_0_1 := rfl

/-- The two programs aggregate the edge features by the same host operations on the same arguments: the same zero
    array, the same column of source nodes cut from the edge index, the same scatter-add. Only the spelling is opened,
    never the scatter-add itself. -/
theorem agg_eq (E : IVec Cert.KernelIdeal.S2x1600000 32) (A : FVec Ideal Cert.KernelIdeal.S1600000x64 .f32) :
    Cert.ReferenceIdeal.Read.val_main_v4 (F := Ideal) E A = Cert.KernelIdeal.Whole.agg E A := by
  unfold Cert.KernelIdeal.Whole.agg Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst
  rw [scatter_eq]

/-- From memories that agree on the arguments, under the precondition, both idealized programs end with the result at
    `G` of the arguments: the kernel by its blocks (KernelValue), the reference by its run read index by index
    (RefValue); both use that every graph number is in 0 … 63 (IndexRange). -/
theorem algebraic : Cert.algebraic_KernelIdeal_ReferenceIdeal := by
  intro m ρ m' ρ' hpre hagree
  have hv : ∀ (c : Dev Cert.KernelIdeal.nD) i,
      (m ((c.tc : Thread Cert.KernelIdeal.nD Cert.KernelIdeal.τ).loc Cert.KernelIdeal.main_arg4) i).toNat < 64 :=
    fun c i => Cert.IndexRange.graph_lt _ _ _ _ _ _ _ _ _ (hpre c) i
  refine ⟨fun c => Cert.KernelIdeal.Whole.Gm m c, Cert.KernelIdeal.Whole.run m ρ hv, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v21_eq, a0, a1, a2, a3, a4, a5, a6, a7, a8,
    Cert.ReferenceIdeal.RefValue.result_eq _ _ _ _ _ _ _ _ _ (fun i => hv c i), agg_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
